-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S4096x64x128 : Shape := ⟨3, ![4096, 64, 128]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel
  bcast_S_S4096x64x128 : S_.BroadcastsInDim S4096x64x128 (![] : Fin 0 → Fin S4096x64x128.rank)
  reducesTo_S4096x64x128_S_d0_1_2 : S4096x64x128.ReducesTo [0, 1, 2] S_

variable [Facts]

def fn_part2 {F : FTy → Type} [FloatOps F] (main_arg7 : FVec F S4096x64x128 .f32) (main_arg8 : FVec F S4096x64x128 .f32) (main_arg9 : FVec F S4096x64x128 .f32) (main_v33 : IVec S_ 1) : IVec S_ 1 :=
  let main_v34 : FVec F S4096x64x128 .f32 := Host.absf main_arg7
  let main_cst_12 : FVec F S_ .f32 := constant S_ .f32 0x7F800000#32
  let main_v35 : FVec F S4096x64x128 .f32 := broadcastInDim S4096x64x128 ![] bcast_S_S4096x64x128 main_cst_12
  let main_v36 : IVec S4096x64x128 1 := cmpf .olt main_v34 main_v35
  let main_c_13 : IVec S_ 1 := constantI S_ 1 1#1
  let main_v37 : IVec S_ 1 := (fun x v => Host.reduce IntOp.andi x v reducesTo_S4096x64x128_S_d0_1_2 h_S_) main_v36 main_c_13
  let main_v38 : IVec S_ 1 := andi main_v33 main_v37
  let main_v39 : FVec F S4096x64x128 .f32 := Host.absf main_arg8
  let main_cst_14 : FVec F S_ .f32 := constant S_ .f32 0x7F800000#32
  let main_v40 : FVec F S4096x64x128 .f32 := broadcastInDim S4096x64x128 ![] bcast_S_S4096x64x128 main_cst_14
  let main_v41 : IVec S4096x64x128 1 := cmpf .olt main_v39 main_v40
  let main_c_15 : IVec S_ 1 := constantI S_ 1 1#1
  let main_v42 : IVec S_ 1 := (fun x v => Host.reduce IntOp.andi x v reducesTo_S4096x64x128_S_d0_1_2 h_S_) main_v41 main_c_15
  let main_v43 : IVec S_ 1 := andi main_v38 main_v42
  let main_v44 : FVec F S4096x64x128 .f32 := Host.absf main_arg9
  let main_cst_16 : FVec F S_ .f32 := constant S_ .f32 0x7F800000#32
  let main_v45 : FVec F S4096x64x128 .f32 := broadcastInDim S4096x64x128 ![] bcast_S_S4096x64x128 main_cst_16
  let main_v46 : IVec S4096x64x128 1 := cmpf .olt main_v44 main_v45
  let main_c_17 : IVec S_ 1 := constantI S_ 1 1#1
  let main_v47 : IVec S_ 1 := (fun x v => Host.reduce IntOp.andi x v reducesTo_S4096x64x128_S_d0_1_2 h_S_) main_v46 main_c_17
  let main_v48 : IVec S_ 1 := andi main_v43 main_v47
  main_v48

def fn_part1 {F : FTy → Type} [FloatOps F] (main_arg4 : FVec F S64x4096x128 .f32) (main_arg5 : FVec F S64x4096x128 .f32) (main_arg6 : FVec F S64x4096x128 .f32) (main_arg7 : FVec F S4096x64x128 .f32) (main_arg8 : FVec F S4096x64x128 .f32) (main_arg9 : FVec F S4096x64x128 .f32) (main_v13 : IVec S_ 1) (main_v16 : IVec S64x4096x128 1) : IVec S_ 1 :=
  let main_c_5 : IVec S_ 1 := constantI S_ 1 1#1
  let main_v17 : IVec S_ 1 := (fun x v => Host.reduce IntOp.andi x v reducesTo_S64x4096x128_S_d0_1_2 h_S_) main_v16 main_c_5
  let main_v18 : IVec S_ 1 := andi main_v13 main_v17
  let main_v19 : FVec F S64x4096x128 .f32 := Host.absf main_arg4
  let main_cst_6 : FVec F S_ .f32 := constant S_ .f32 0x7F800000#32
  let main_v20 : FVec F S64x4096x128 .f32 := broadcastInDim S64x4096x128 ![] bcast_S_S64x4096x128 main_cst_6
  let main_v21 : IVec S64x4096x128 1 := cmpf .olt main_v19 main_v20
  let main_c_7 : IVec S_ 1 := constantI S_ 1 1#1
  let main_v22 : IVec S_ 1 := (fun x v => Host.reduce IntOp.andi x v reducesTo_S64x4096x128_S_d0_1_2 h_S_) main_v21 main_c_7
  let main_v23 : IVec S_ 1 := andi main_v18 main_v22
  let main_v24 : FVec F S64x4096x128 .f32 := Host.absf main_arg5
  let main_cst_8 : FVec F S_ .f32 := constant S_ .f32 0x7F800000#32
  let main_v25 : FVec F S64x4096x128 .f32 := broadcastInDim S64x4096x128 ![] bcast_S_S64x4096x128 main_cst_8
  let main_v26 : IVec S64x4096x128 1 := cmpf .olt main_v24 main_v25
  let main_c_9 : IVec S_ 1 := constantI S_ 1 1#1
  let main_v27 : IVec S_ 1 := (fun x v => Host.reduce IntOp.andi x v reducesTo_S64x4096x128_S_d0_1_2 h_S_) main_v26 main_c_9
  let main_v28 : IVec S_ 1 := andi main_v23 main_v27
  let main_v29 : FVec F S64x4096x128 .f32 := Host.absf main_arg6
  let main_cst_10 : FVec F S_ .f32 := constant S_ .f32 0x7F800000#32
  let main_v30 : FVec F S64x4096x128 .f32 := broadcastInDim S64x4096x128 ![] bcast_S_S64x4096x128 main_cst_10
  let main_v31 : IVec S64x4096x128 1 := cmpf .olt main_v29 main_v30
  let main_c_11 : IVec S_ 1 := constantI S_ 1 1#1
  let main_v32 : IVec S_ 1 := (fun x v => Host.reduce IntOp.andi x v reducesTo_S64x4096x128_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S64x4096x128 .f32) (main_arg1 : FVec F S64x4096x128 .f32) (main_arg2 : FVec F S64x4096x128 .f32) (main_arg3 : FVec F S64x4096x128 .f32) (main_arg4 : FVec F S64x4096x128 .f32) (main_arg5 : FVec F S64x4096x128 .f32) (main_arg6 : FVec F S64x4096x128 .f32) (main_arg7 : FVec F S4096x64x128 .f32) (main_arg8 : FVec F S4096x64x128 .f32) (main_arg9 : FVec F S4096x64x128 .f32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  let main_v4 : FVec F S64x4096x128 .f32 := Host.absf main_arg1
  let main_cst_0 : FVec F S_ .f32 := constant S_ .f32 0x7F800000#32
  let main_v5 : FVec F S64x4096x128 .f32 := broadcastInDim S64x4096x128 ![] bcast_S_S64x4096x128 main_cst_0
  let main_v6 : IVec S64x4096x128 1 := cmpf .olt main_v4 main_v5
  let main_c_1 : IVec S_ 1 := constantI S_ 1 1#1
  let main_v7 : IVec S_ 1 := (fun x v => Host.reduce IntOp.andi x v reducesTo_S64x4096x128_S_d0_1_2 h_S_) main_v6 main_c_1
  let main_v8 : IVec S_ 1 := andi main_v3 main_v7
  let main_v9 : FVec F S64x4096x128 .f32 := Host.absf main_arg2
  let main_cst_2 : FVec F S_ .f32 := constant S_ .f32 0x7F800000#32
  let main_v10 : FVec F S64x4096x128 .f32 := broadcastInDim S64x4096x128 ![] bcast_S_S64x4096x128 main_cst_2
  let main_v11 : IVec S64x4096x128 1 := cmpf .olt main_v9 main_v10
  let main_c_3 : IVec S_ 1 := constantI S_ 1 1#1
  let main_v12 : IVec S_ 1 := (fun x v => Host.reduce IntOp.andi x v reducesTo_S64x4096x128_S_d0_1_2 h_S_) main_v11 main_c_3
  let main_v13 : IVec S_ 1 := andi main_v8 main_v12
  let main_v14 : FVec F S64x4096x128 .f32 := Host.absf main_arg3
  let main_cst_4 : FVec F S_ .f32 := constant S_ .f32 0x7F800000#32
  let main_v15 : FVec F S64x4096x128 .f32 := broadcastInDim S64x4096x128 ![] bcast_S_S64x4096x128 main_cst_4
  let main_v16 : IVec S64x4096x128 1 := cmpf .olt main_v14 main_v15
  fn_part1 (F := F) main_arg4 main_arg5 main_arg6 main_arg7 main_arg8 main_arg9 main_v13 main_v16
-- ==== Kernel.lean ====
abbrev S64x4096x128 : Shape := ⟨3, ![64, 4096, 128]⟩
abbrev S4096x64x128 : Shape := ⟨3, ![4096, 64, 128]⟩
abbrev S4096x1 : Shape := ⟨2, ![4096, 1]⟩
abbrev S64x32x128 : Shape := ⟨3, ![64, 32, 128]⟩
abbrev S32x1 : Shape := ⟨2, ![32, 1]⟩
abbrev S32x128 : Shape := ⟨2, ![32, 128]⟩
abbrev S32 : Shape := ⟨1, ![32]⟩
abbrev S4096 : Shape := ⟨1, ![4096]⟩
abbrev S_ : Shape := ⟨0, ![]⟩

abbrev nBuf : Space → Nat
  | .hbm => 23
  | .vmem => 20
  | .smem => 0
  | _ => 0

abbrev bufTy : (tb : Table) → Fin (tcTables nBuf tb) → BufTy
  | .hbm, ⟨0, _⟩ => ⟨S64x4096x128, .f32⟩
  | .hbm, ⟨1, _⟩ => ⟨S64x4096x128, .f32⟩
  | .hbm, ⟨2, _⟩ => ⟨S64x4096x128, .f32⟩
  | .hbm, ⟨3, _⟩ => ⟨S64x4096x128, .f32⟩
  | .hbm, ⟨4, _⟩ => ⟨S64x4096x128, .f32⟩
  | .hbm, ⟨5, _⟩ => ⟨S64x4096x128, .f32⟩
  | .hbm, ⟨6, _⟩ => ⟨S64x4096x128, .f32⟩
  | .hbm, ⟨7, _⟩ => ⟨S4096x64x128, .f32⟩
  | .hbm, ⟨8, _⟩ => ⟨S4096x64x128, .f32⟩
  | .hbm, ⟨9, _⟩ => ⟨S4096x64x128, .f32⟩
  | .hbm, ⟨10, _⟩ => ⟨S64x4096x128, .f32⟩
  | .hbm, ⟨11, _⟩ => ⟨S4096x1, .f32⟩
  | .hbm, ⟨12, _⟩ => ⟨S4096x1, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S64x32x128, .f32⟩
  | .local _ .vmem, ⟨1, _⟩ => ⟨S64x32x128, .f32⟩
  | .local _ .vmem, ⟨2, _⟩ => ⟨S64x32x128, .f32⟩
  | .local _ .vmem, ⟨3, _⟩ => ⟨S64x32x128, .f32⟩
  | .local _ .vmem, ⟨4, _⟩ => ⟨S64x32x128, .f32⟩
  | .local _ .vmem, ⟨5, _⟩ => ⟨S64x32x128, .f32⟩
  | .local _ .vmem, ⟨6, _⟩ => ⟨S64x32x128, .f32⟩
  | .local _ .vmem, ⟨7, _⟩ => ⟨S64x32x128, .f32⟩
  | .local _ .vmem, ⟨8, _⟩ => ⟨S64x32x128, .f32⟩
  | .local _ .vmem, ⟨9, _⟩ => ⟨S64x32x128, .f32⟩
  | .local _ .vmem, ⟨10, _⟩ => ⟨S64x32x128, .f32⟩
  | .local _ .vmem, ⟨11, _⟩ => ⟨S64x32x128, .f32⟩
  | .local _ .vmem, ⟨12, _⟩ => ⟨S64x32x128, .f32⟩
  | .local _ .vmem, ⟨13, _⟩ => ⟨S64x32x128, .f32⟩
  | .local _ .vmem, ⟨14, _⟩ => ⟨S64x32x128, .f32⟩
  | .local _ .vmem, ⟨15, _⟩ => ⟨S64x32x128, .f32⟩
  | .local _ .vmem, ⟨16, _⟩ => ⟨S32x1, .f32⟩
  | .local _ .vmem, ⟨17, _⟩ => ⟨S32x1, .f32⟩
  | .local _ .vmem, ⟨18, _⟩ => ⟨S32x1, .f32⟩
  | .local _ .vmem, ⟨19, _⟩ => ⟨S32x1, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S4096x64x128_S64x4096x128_1_0_2 : S4096x64x128.Transposes [1, 0, 2] S64x4096x128
  inb_S64x32x128_S64x32x128_0_0_0 : ∀ a, (![0, 0, 0] : Fin 3 → Nat) a + S64x32x128.size a ≤ S64x32x128.size a
  h_S64x32x128 : 0 < S64x32x128.numel
  reduces_S64x32x128_S32x128 : S64x32x128.Reduces [0] S32x128
  reduces_S32x128_S32 : S32x128.Reduces [1] S32
  shapeCasts_S32_S32x1 : S32.ShapeCasts S32x1
  inb_S32x1_S32x1_0_0 : ∀ a, (![0, 0] : Fin 2 → Nat) a + S32x1.size a ≤ S32x1.size a
  h_S32x1 : 0 < S32x1.numel
  shapeCasts_S64x32x128_S64x32x128 : S64x32x128.ShapeCasts S64x32x128
  shapeCasts_S4096x1_S4096 : S4096x1.ShapeCasts S4096
  reducesTo_S4096x1_S_d0_1 : S4096x1.ReducesTo [0, 1] S_
  h_S_ : 0 < S_.numel
  reducesTo_S4096_S_d0 : S4096.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32x128.size a ≤ S64x4096x128.size a
  hwx0_0 : ∀ i : grid0.Coords, EltTy.bits .f32 = 32 ∨ (Rect.block (s := S64x4096x128) S64x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32x128.size a ≤ S64x4096x128.size a
  hwx0_1 : ∀ i : grid0.Coords, EltTy.bits .f32 = 32 ∨ (Rect.block (s := S64x4096x128) S64x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x32x128.size a ≤ S64x4096x128.size a
  hwx0_2 : ∀ i : grid0.Coords, EltTy.bits .f32 = 32 ∨ (Rect.block (s := S64x4096x128) S64x32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x32x128.size a ≤ S64x4096x128.size a
  hwx0_3 : ∀ i : grid0.Coords, EltTy.bits .f32 = 32 ∨ (Rect.block (s := S64x4096x128) S64x32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x32x128.size a ≤ S64x4096x128.size a
  hwx0_4 : ∀ i : grid0.Coords, EltTy.bits .f32 = 32 ∨ (Rect.block (s := S64x4096x128) S64x32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x32x128.size a ≤ S64x4096x128.size a
  hwx0_5 : ∀ i : grid0.Coords, EltTy.bits .f32 = 32 ∨ (Rect.block (s := S64x4096x128) S64x32x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x32x128.size a ≤ S64x4096x128.size a
  hwx0_6 : ∀ i : grid0.Coords, EltTy.bits .f32 = 32 ∨ (Rect.block (s := S64x4096x128) S64x32x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x32x128.size a ≤ S64x4096x128.size a
  hwx0_7 : ∀ i : grid0.Coords, EltTy.bits .f32 = 32 ∨ (Rect.block (s := S64x4096x128) S64x32x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S4096x1.size a
  hwx0_8 : ∀ i : grid0.Coords, EltTy.bits .f32 = 32 ∨ (Rect.block (s := S4096x1) S32x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x1.size a ≤ S4096x1.size a
  hwx0_9 : ∀ i : grid0.Coords, EltTy.bits .f32 = 32 ∨ (Rect.block (s := S4096x1) S32x1.size (cc0_transform_9 i) (hinb0_9 i)).WholeWords (EltTy.packing .f32)

variable [Facts₀]

abbrev win0_0 : Pipeline.Window sig grid0 :=
  Pipeline.Window.ofSpec (Memref.whole main_arg0) S64x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x32x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x32x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x32x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S64x32x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1_0) S32x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_1) S32x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x4096x128 : Shape := ⟨3, ![64, 4096, 128]⟩
abbrev S4096x64x128 : Shape := ⟨3, ![4096, 64, 128]⟩
abbrev S_ : Shape := ⟨0, ![]⟩
abbrev S4096 : Shape := ⟨1, ![4096]⟩

abbrev nBuf : Space → Nat
  | .hbm => 56
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S64x4096x128, .f32⟩
  | .hbm, ⟨2, _⟩ => ⟨S64x4096x128, .f32⟩
  | .hbm, ⟨3, _⟩ => ⟨S64x4096x128, .f32⟩
  | .hbm, ⟨4, _⟩ => ⟨S64x4096x128, .f32⟩
  | .hbm, ⟨5, _⟩ => ⟨S64x4096x128, .f32⟩
  | .hbm, ⟨6, _⟩ => ⟨S64x4096x128, .f32⟩
  | .hbm, ⟨7, _⟩ => ⟨S4096x64x128, .f32⟩
  | .hbm, ⟨8, _⟩ => ⟨S4096x64x128, .f32⟩
  | .hbm, ⟨9, _⟩ => ⟨S4096x64x128, .f32⟩
  | .hbm, ⟨10, _⟩ => ⟨S64x4096x128, .f32⟩
  | .hbm, ⟨11, _⟩ => ⟨S64x4096x128, .f32⟩
  | .hbm, ⟨12, _⟩ => ⟨S64x4096x128, .f32⟩
  | .hbm, ⟨13, _⟩ => ⟨S64x4096x128, .f32⟩
  | .hbm, ⟨14, _⟩ => ⟨S64x4096x128, .f32⟩
  | .hbm, ⟨15, _⟩ => ⟨S64x4096x128, .f32⟩
  | .hbm, ⟨16, _⟩ => ⟨S64x4096x128, .f32⟩
  | .hbm, ⟨17, _⟩ => ⟨S64x4096x128, .f32⟩
  | .hbm, ⟨18, _⟩ => ⟨S64x4096x128, .f32⟩
  | .hbm, ⟨19, _⟩ => ⟨S_, .f32⟩
  | .hbm, ⟨20, _⟩ => ⟨S64x4096x128, .f32⟩
  | .hbm, ⟨21, _⟩ => ⟨S64x4096x128, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S64x4096x128, .f32⟩
  | .hbm, ⟨28, _⟩ => ⟨S64x4096x128, .f32⟩
  | .hbm, ⟨29, _⟩ => ⟨S64x4096x128, .f32⟩
  | .hbm, ⟨30, _⟩ => ⟨S_, .f32⟩
  | .hbm, ⟨31, _⟩ => ⟨S64x4096x128, .f32⟩
  | .hbm, ⟨32, _⟩ => ⟨S64x4096x128, .f32⟩
  | .hbm, ⟨33, _⟩ => ⟨S64x4096x128, .f32⟩
  | .hbm, ⟨34, _⟩ => ⟨S64x4096x128, .f32⟩
  | .hbm, ⟨35, _⟩ => ⟨S64x4096x128, .f32⟩
  | .hbm, ⟨36, _⟩ => ⟨S64x4096x128, .f32⟩
  | .hbm, ⟨37, _⟩ => ⟨S64x4096x128, .f32⟩
  | .hbm, ⟨38, _⟩ => ⟨S_, .f32⟩
  | .hbm, ⟨39, _⟩ => ⟨S64x4096x128, .f32⟩
  | .hbm, ⟨40, _⟩ => ⟨S64x4096x128, .f32⟩
  | .hbm, ⟨41, _⟩ => ⟨S_, .f32⟩
  | .hbm, ⟨42, _⟩ => ⟨S64x4096x128, .f32⟩
  | .hbm, ⟨43, _⟩ => ⟨S64x4096x128, .f32⟩
  | .hbm, ⟨44, _⟩ => ⟨S64x4096x128, .f32⟩
  | .hbm, ⟨45, _⟩ => ⟨S64x4096x128, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]

class Facts₀ : Prop where
  bcast_S_S64x4096x128 : S_.BroadcastsInDim S64x4096x128 (![] : Fin 0 → Fin S64x4096x128.rank)
  reducesTo_S64x4096x128_S4096_d0_2 : S64x4096x128.ReducesTo [0, 2] S4096
  h_S_ : 0 < S_.numel
  bcast_S_S4096 : S_.BroadcastsInDim S4096 (![] : Fin 0 → Fin S4096.rank)
  transposes_S4096x64x128_S64x4096x128_1_0_2 : S4096x64x128.Transposes [1, 0, 2] S64x4096x128
  reducesTo_S64x4096x128_S_d0_1_2 : S64x4096x128.ReducesTo [0, 1, 2] S_
  reducesTo_S4096_S_d0 : S4096.ReducesTo [0] S_

variable [Facts₀]

class Facts : Prop extends Facts₀ where

variable [Facts]
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.LibSum3.lean ====
/-
  Sums over the index set of a rank-3 array, the host's float sum over the two outer axes of such an array, and a lane
  sum over its leading axis.

  An index of an `[n0, n1, n2]` array is a triple of coordinates, so a sum over the index set is a triple sum over the
  coordinates; likewise an index of an `[n]` array is its one coordinate. The host's float `reduce` with an add body
  across dimensions 0 and 2 of an `[n0, n1, n2]` array keeps the middle axis: over the extended reals its entry `b` is
  the initial value plus the sum, over every `t` and `d`, of the operand at `(t, b, d)` — an index contributes to entry
  `b` exactly when its middle coordinate is `b`. An f32 lane sum over the leading axis reads, at `(i, j)`, the sum over `k` of
  the entries `(k, i, j)`.
-/
import Idealize.ShloMosaic.Lib.ValueIdx
import Idealize.ShloMosaic.Lib.ValueIdxRank1
import Idealize.ShloMosaic.PureOps.Ideal.Laws
import Mathlib.Algebra.BigOperators.Group.Finset.Basic
import Mathlib.Algebra.BigOperators.Fin

open scoped BigOperators

namespace Cert.LibSum3

open Idealize.ShloMosaic Idealize.ShloMosaic.ValueIdx

/-- The indices of an `[n0, n1, n2]` array are the triples of coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of an `[n0, n1, n2]` array is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over the indices of an `[n]` array is the sum over the coordinate. -/
theorem sum_idx1 {M : Type*} [AddCommMonoid M] {n : Nat} (f : (⟨1, ![n]⟩ : Shape).Idx → M) :
    ∑ j, f j = ∑ r : Fin n, f (ix1 r) :=
  (Equiv.sum_comp (idxEquiv1 (n := n)).symm f).symm

/-- A sum over the indices of a column `[n, 1]` is the sum over its rows. -/
theorem sum_idx_col {M : Type*} [AddCommMonoid M] {n : Nat} (f : (⟨2, ![n, 1]⟩ : Shape).Idx → M) :
    ∑ j, f j = ∑ r : Fin n, f (ix2 r (0 : Fin 1)) := by
  rw [sum_idx2]
  exact Finset.sum_congr rfl fun r _ => Fin.sum_univ_one _

/-- Dropping the outer axes of an index of an `[n0, n1, n2]` array leaves its middle coordinate. -/
theorem drop_02_eq_iff {n0 n1 n2 : Nat} (h : (⟨3, ![n0, n1, n2]⟩ : Shape).ReducesTo [0, 2] ⟨1, ![n1]⟩)
    (t : Fin n0) (b' : Fin n1) (d : Fin n2) (b : Fin n1) : h.drop (ix3 t b' d) = ix1 b ↔ b' = b := by
  have hv : (h.drop (ix3 t b' d) 0 : Nat) = b'.val := rfl
  constructor
  · intro e
    exact Fin.ext (hv.symm.trans (congrArg (fun j : (⟨1, ![n1]⟩ : Shape).Idx => (j 0).val) e))
  · intro e
    funext a
    match a with
    | ⟨0, _⟩ => exact Fin.ext (hv.trans (congrArg Fin.val e))

/-- The host's float sum across dimensions 0 and 2 of an `[n0, n1, n2]` array of extended reals is, at `b`, the initial
    value plus the sum over `t` and `d` of the entries `(t, b, d)`. -/
theorem hostReduceAdd_02_apply {n0 n1 n2 : Nat} (h : (⟨3, ![n0, n1, n2]⟩ : Shape).ReducesTo [0, 2] ⟨1, ![n1]⟩)
    (x : (⟨3, ![n0, n1, n2]⟩ : Shape).Idx → EReal) (init : EReal) (b : Fin n1) :
    Ideal.hostReduceAdd h x init (ix1 b) = init + ∑ t : Fin n0, ∑ d : Fin n2, x (ix3 t b d) := by
  unfold Ideal.hostReduceAdd
  rw [Finset.sum_filter, sum_idx3]
  refine congrArg (init + ·) (Finset.sum_congr rfl fun t _ => ?_)
  rw [Finset.sum_comm]
  refine Finset.sum_congr rfl fun d _ => ?_
  simp only [drop_02_eq_iff h t _ d b]
  rw [Finset.sum_ite_eq' Finset.univ b fun b' => x (ix3 t b' d), if_pos (Finset.mem_univ b)]

/-- An f32 lane sum over the LEADING axis of an `[n, a, b]` array of extended reals is, at `(i, j)`, the sum over `k` of
    the entries `(k, i, j)`. -/
theorem multiReduction_add_lead_apply {n a b : ℕ} (src : FVec Ideal ⟨3, ![n, a, b]⟩ .f32)
    (h : (⟨3, ![n, a, b]⟩ : Shape).Reduces [0] ⟨2, ![a, b]⟩) (hφ : FKind.Formats .f32)
    (hacc : (0x00000000#32 : BitVec 32) = FKind.add.neutral .f32 hφ) (i : Fin a) (j : Fin b) :
    multiReduction .add [0] ⟨2, ![a, b]⟩ src 0x00000000#32 h hφ hacc (ix2 i j) = ∑ k : Fin n, src (ix3 k i j) :=
  (Ideal.multiReduction_add_single src 0x00000000#32 h hφ hacc (ix2 i j)).trans
    (Finset.sum_congr rfl fun k _ => congrArg src (funext fun ax => Fin.ext (by
      match ax with
      | ⟨0, _⟩ => rfl
      | ⟨1, _⟩ => rfl
      | ⟨2, _⟩ => rfl)))

end Cert.LibSum3
-- ==== Proof.LibRealLaws.lean ====
/-
  Laws of sums and quotients of extended reals whose operands are real numbers. On the extended reals
  multiplication does not distribute over addition in general (an infinity spoils it); between real numbers it does,
  and a quotient by a nonzero real is a product with its inverse. Two arrangements of a normalised sum are joined here:
  divide the sum, or divide each weight first.

  The method is the same throughout: every operand is a real number read as an extended real, and that reading
  commutes with products, with finite sums and with a choice between a value and zero. So each side is the reading
  of one real expression, and the two real expressions are equal by the ordinary laws of a commutative ring.
-/
import Idealize.ShloMosaic.PureOps.Ideal
import Mathlib.Data.EReal.Operations
import Mathlib.Algebra.BigOperators.Group.Finset.Basic
import Mathlib.Algebra.BigOperators.Group.Finset.Piecewise
import Mathlib.Algebra.BigOperators.Ring.Finset

noncomputable section

namespace Cert.LibRealLaws

open Idealize.ShloMosaic

/-- A finite sum of real numbers, each read as an extended real, is the real sum read as an extended real.
    By induction on the index set: the empty sum is zero on both sides, and adding one more term is the
    statement that the reading respects a sum of two reals. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, EReal.coe_add, ih]

/-- A choice between a real number and zero, read as an extended real, is the choice between the readings. -/
theorem coe_ite_zero (p : Prop) [Decidable p] (r : ℝ) :
    (if p then ((r : ℝ) : EReal) else 0) = (((if p then r else 0) : ℝ) : EReal) := by
  by_cases hp : p
  · rw [if_pos hp, if_pos hp]
  · rw [if_neg hp, if_neg hp, EReal.coe_zero]

/-- The reciprocal of a nonzero real `g`, as an extended-real quotient `1 / g`, is the real number `1 / g`. -/
theorem div_one_coe {g : ℝ} (hg : g ≠ 0) : Ideal.div 1 ((g : ℝ) : EReal) = ((1 / g : ℝ) : EReal) := by
  rw [Ideal.div_coe hg, one_mul]

/-- THE POOLED MEAN. Dividing a weighted sum of real numbers by a nonzero real is summing with each weight divided
    first. Both sides are readings of real numbers: the left of `(∑ mask·x) · (1/c)`, the right of
    `∑ mask · (1/c) · x`; in the reals the factor `1/c` moves inside the sum. -/
theorem div_sum_mul {L : Type*} [Fintype L] (mask x : L → ℝ) (c : ℝ) (hc : c ≠ 0) :
    Ideal.div (∑ l, ((mask l : ℝ) : EReal) * ((x l : ℝ) : EReal)) ((c : ℝ) : EReal)
      = ∑ l, Ideal.div ((mask l : ℝ) : EReal) ((c : ℝ) : EReal) * ((x l : ℝ) : EReal) := by
  -- every quotient by `c` is a product with the real `1 / c`
  simp_rw [Ideal.div_coe hc, ← EReal.coe_mul]
  -- both sums are sums of readings of reals
  rw [coe_sum, coe_sum, ← EReal.coe_mul]
  congr 1
  -- in the reals: `(∑ mask·x) · (1/c) = ∑ mask · (1/c) · x`
  rw [Finset.sum_mul]
  exact Finset.sum_congr rfl fun l _ => by ring

/-- The real identity behind the adjacency law. A row that holds the constant `a` once for every edge from `s`
    into the row, applied to `x`, is `a` times the sum of `x` over the row's edges: exchange the two sums, and for
    a fixed edge the sum over `s` has its single nonzero term at `s = src e`. -/
theorem real_adj_mul {E S : Type*} [Fintype E] [Fintype S] [DecidableEq S]
    (hit : E → Prop) [DecidablePred hit] (src : E → S) (x : S → ℝ) (a : ℝ) :
    ∑ s, (∑ e, if hit e ∧ src e = s then a else 0) * x s = (∑ e, if hit e then x (src e) else 0) * a := by
  simp_rw [Finset.sum_mul]
  rw [Finset.sum_comm]
  refine Finset.sum_congr rfl fun e _ => ?_
  by_cases he : hit e
  · -- an edge of the row: only `s = src e` contributes, with `a · x (src e)`
    simp only [he, true_and, if_true, ite_mul, zero_mul, Finset.sum_ite_eq, Finset.mem_univ]
    exact mul_comm _ _
  · -- an edge of another row contributes nothing on either side
    simp only [he, false_and, if_false, zero_mul, Finset.sum_const_zero]

/-- THE NORMALISED ADJACENCY. Fix one destination row; `hit e` says edge `e` goes into it, `src e` is the node it
    comes from, `g` the row's degree (nonzero). The row of the dense matrix that holds `1 / g` once per edge from
    `s`, applied to the real features `x`, is the sum of the features over the row's edges divided by `g`.
    Both sides are readings of real numbers, and the real numbers agree by `real_adj_mul` with `a = 1 / g`. -/
theorem adj_mul_eq_segsum_div {E S : Type*} [Fintype E] [Fintype S] [DecidableEq S]
    (hit : E → Prop) [DecidablePred hit] (src : E → S) (x : S → ℝ) (g : ℝ) (hg : g ≠ 0) :
    ∑ s, (∑ e, if hit e ∧ src e = s then Ideal.div 1 ((g : ℝ) : EReal) else 0) * ((x s : ℝ) : EReal)
      = Ideal.div (∑ e, if hit e then ((x (src e) : ℝ) : EReal) else 0) ((g : ℝ) : EReal) := by
  -- the entry `1 / g` is a real number, and the quotient on the right is a product with it
  rw [div_one_coe hg, Ideal.div_coe hg]
  -- pull the reading out of the choices, the inner sums, the products and the outer sum
  simp_rw [coe_ite_zero, coe_sum, ← EReal.coe_mul, coe_sum]
  congr 1
  exact real_adj_mul hit src x (1 / g)

end Cert.LibRealLaws

end
-- ==== Proof.Spec.lean ====
/-
  The loss both programs compute, written once over the extended reals.

  Two pointwise integrands. `kld pm ps em es` is the Kullback–Leibler integrand of two diagonal Gaussians whose spreads
  are given as log-variances: `ps − es + (exp es + (em − pm)²) · exp(−ps) − 1`. `logp dm ds x k` is the log-density of a
  masked observation: with `ℓ = ½ · (ds · k)` and `z = (x·k − dm·k) · exp(−ℓ)` it is `c − ℓ − (½ · z) · z`, `c` the f32
  nearest −½·log 2π. The loss sums `½ · kld` over time and feature for each of the 4096 batch rows and averages over the
  rows, and adds the sum of `−logp` over everything divided by 4096.

  The float literals stay as their f32 words: the same word stands on both sides and is never evaluated. Only two facts
  about them are used: the zero word is 0, and each of the others is a real number (its exponent field is not all
  ones). From real inputs `logp` is a real number, and the negative of a finite sum of real numbers is the sum of the
  negatives; on the extended reals that law needs the terms real, since ⊤ + ⊥ = ⊥ while −⊥ + −⊤ = ⊥ as well.
-/
import Idealize.ShloMosaic.PureOps.Ideal
import Idealize.ShloMosaic.PureOps.Ideal.Laws
import Idealize.ShloMosaic.Lib.ValueIdx
import proofs.«168056_j18897856102820_1_alg».proof.Proof.LibRealLaws
import Mathlib.Data.EReal.Operations
import Mathlib.Algebra.BigOperators.Group.Finset.Basic

open scoped BigOperators

noncomputable section

namespace Cert.LossSpec

open Idealize.ShloMosaic Idealize.ShloMosaic.ValueIdx

/-- The f32 words of 1, ½, the constant of the log-density, and 4096. -/
abbrev one32 : EReal := Ideal.ofBits .f32 0x3F800000#32
abbrev half32 : EReal := Ideal.ofBits .f32 0x3F000000#32
abbrev lnc32 : EReal := Ideal.ofBits .f32 0xBF6B3F8E#32
abbrev cnt32 : EReal := Ideal.ofBits .f32 0x45800000#32

/-- The Kullback–Leibler integrand at one element. -/
def kld (pm ps em es : EReal) : EReal :=
  ps - es + (Ideal.exp es + (em - pm) * (em - pm)) * Ideal.exp (-ps) - one32

/-- The masked log-density at one element. -/
def logp (dm ds x k : EReal) : EReal :=
  lnc32 - half32 * (ds * k)
    - half32 * ((x * k - dm * k) * Ideal.exp (-(half32 * (ds * k)))) * ((x * k - dm * k) * Ideal.exp (-(half32 * (ds * k))))

/-- The loss, over arrays indexed `(t, b, d)` and a mask indexed `(b, t, d)`. -/
def loss (pm ps x em es dm ds : (⟨3, ![64, 4096, 128]⟩ : Shape).Idx → EReal)
    (k : (⟨3, ![4096, 64, 128]⟩ : Shape).Idx → EReal) : EReal :=
  Ideal.div (∑ b : Fin 4096, half32 * ∑ t : Fin 64, ∑ d : Fin 128,
      kld (pm (ix3 t b d)) (ps (ix3 t b d)) (em (ix3 t b d)) (es (ix3 t b d))) cnt32
    + Ideal.div (∑ b : Fin 4096, ∑ t : Fin 64, ∑ d : Fin 128,
      -(logp (dm (ix3 t b d)) (ds (ix3 t b d)) (x (ix3 t b d)) (k (ix3 b t d)))) cnt32

/-- A pattern whose exponent field is not all ones denotes a real number. -/
theorem ieee_real {e m w : Nat} (b : BitVec w) (h : (b.extractLsb' m e).toNat ≠ 2 ^ e - 1) :
    ∃ r : ℝ, Ideal.ieee e m b = (r : EReal) := by
  unfold Ideal.ieee
  dsimp only
  rw [if_neg h]
  split_ifs <;> exact ⟨_, rfl⟩

theorem half32_real : ∃ r : ℝ, half32 = (r : EReal) :=
  show ∃ r : ℝ, Ideal.ieee 8 23 (0x3F000000#32 : BitVec 32) = (r : EReal) from ieee_real _ (by decide)
theorem lnc32_real : ∃ r : ℝ, lnc32 = (r : EReal) :=
  show ∃ r : ℝ, Ideal.ieee 8 23 (0xBF6B3F8E#32 : BitVec 32) = (r : EReal) from ieee_real _ (by decide)

/-- From real inputs the log-density is a real number: every operation in it keeps the reals. -/
theorem logp_real (dm ds x k : ℝ) : ∃ r : ℝ, logp dm ds x k = (r : EReal) := by
  obtain ⟨h, hh⟩ := half32_real
  obtain ⟨c, hc⟩ := lnc32_real
  unfold logp
  rw [hh, hc]
  simp only [← EReal.coe_mul, ← EReal.coe_neg, ← EReal.coe_sub, Ideal.exp_coe]
  exact ⟨_, rfl⟩

/-- The negative of a finite sum of real numbers is the sum of the negatives. -/
theorem neg_sum_of_real {ι : Type*} (s : Finset ι) (f : ι → EReal) (hf : ∀ i, ∃ r : ℝ, f i = (r : EReal)) :
    -(∑ i ∈ s, f i) = ∑ i ∈ s, -(f i) := by
  choose g hg using hf
  simp only [hg, ← EReal.coe_neg]
  rw [Cert.LibRealLaws.coe_sum, Cert.LibRealLaws.coe_sum, ← EReal.coe_neg, Finset.sum_neg_distrib]

end Cert.LossSpec

end
-- ==== Proof.KPay.lean ====
/-
  What the kernel body stores, read at an index.

  The body stores two columns of 32 entries, one per batch row of its tile. Entry `p` of the first is ½ times the sum, over
  the 128 features and the 64 time steps, of the Kullback–Leibler integrand of the tile's row `p`; entry `p` of the second
  is the sum, over features and time, of the negated log-density of row `p`. Each is a lane sum over the leading (time)
  axis, then a lane sum over the features, then a cast of the 32 sums to a column.

  The body writes a negation as `0 − x`; on the extended reals that is `−x`.
-/
import proofs.«168056_j18897856102820_1_alg».proof.Proof.Gen.KernelIdeal.Skeleton
import proofs.«168056_j18897856102820_1_alg».proof.Proof.LibKeepdims
import proofs.«168056_j18897856102820_1_alg».proof.Proof.LibSum3
import proofs.«168056_j18897856102820_1_alg».proof.Proof.Spec
import Idealize.ShloMosaic.Lib.ValueIdx
import Idealize.ShloMosaic.Lib.Pipeline.Value
import Idealize.ShloMosaic.PureOps.Ideal.Laws

open scoped BigOperators

noncomputable section

namespace Cert.KernelIdeal.Pay

open Cert.KernelIdeal Cert.KernelIdeal.Gen Idealize.ShloMosaic Idealize.ShloMosaic.ValueIdx Cert.LossSpec Cert.LibSum3

/-- Zero minus `x` is `−x`: the zero word is the extended real 0. -/
theorem zero_sub32 (x : EReal) : Ideal.ofBits .f32 0x00000000#32 - x = -x := by
  rw [Ideal.ofBits_zero_f32, zero_sub]

/-- The first store at row `p`: ½ times the sum over features and time of the integrand of that row. -/
theorem pay2_at (x0 x1 x3 x4 : Vec Ideal S64x32x128 .f32) (p : Fin 32) (u : Fin 1) :
    k0_pay2 (F := Ideal) x0 x1 x3 x4 (ix2 p u)
      = half32 * ∑ d : Fin 128, ∑ k : Fin 64,
          kld (x0 (ix3 k p d)) (x1 (ix3 k p d)) (x3 (ix3 k p d)) (x4 (ix3 k p d)) := by
  unfold k0_pay2
  dsimp only
  show half32 * _ = half32 * _
  refine congrArg (half32 * ·) ?_
  refine (shapeCast_a_a1_apply _ shapeCasts_S32_S32x1 p u).trans ?_
  refine (multiReduction_add_cols_apply _ reduces_S32x128_S32 (.inl rfl) rfl p).trans ?_
  refine Finset.sum_congr rfl fun d _ => ?_
  refine (multiReduction_add_lead_apply _ reduces_S64x32x128_S32x128 (.inl rfl) rfl p d).trans ?_
  refine Finset.sum_congr rfl fun k _ => ?_
  show x1 (ix3 k p d) - x4 (ix3 k p d)
      + (Ideal.exp (x4 (ix3 k p d)) + (x3 (ix3 k p d) - x0 (ix3 k p d)) * (x3 (ix3 k p d) - x0 (ix3 k p d)))
        * Ideal.exp (Ideal.ofBits .f32 0x00000000#32 - x1 (ix3 k p d)) - one32 = _
  rw [zero_sub32]
  rfl

/-- The second store at row `p`: the sum over features and time of the negated log-density of that row. -/
theorem pay1_at (xm x5 x6 x2 : Vec Ideal S64x32x128 .f32) (p : Fin 32) (u : Fin 1) :
    k0_pay1 (F := Ideal) xm x5 x6 x2 (ix2 p u)
      = ∑ d : Fin 128, ∑ k : Fin 64,
          -(logp (x5 (ix3 k p d)) (x6 (ix3 k p d)) (x2 (ix3 k p d)) (xm (ix3 k p d))) := by
  unfold k0_pay1
  dsimp only
  refine (shapeCast_a_a1_apply _ shapeCasts_S32_S32x1 p u).trans ?_
  refine (multiReduction_add_cols_apply _ reduces_S32x128_S32 (.inl rfl) rfl p).trans ?_
  refine Finset.sum_congr rfl fun d _ => ?_
  refine (multiReduction_add_lead_apply _ reduces_S64x32x128_S32x128 (.inl rfl) rfl p d).trans ?_
  refine Finset.sum_congr rfl fun k _ => ?_
  show Ideal.ofBits .f32 0x00000000#32
      - (lnc32 - half32 * (x6 (ix3 k p d) * xm (ix3 k p d))
        - half32 * ((x2 (ix3 k p d) * xm (ix3 k p d) - x5 (ix3 k p d) * xm (ix3 k p d))
            * Ideal.exp (Ideal.ofBits .f32 0x00000000#32 - half32 * (x6 (ix3 k p d) * xm (ix3 k p d))))
          * ((x2 (ix3 k p d) * xm (ix3 k p d) - x5 (ix3 k p d) * xm (ix3 k p d))
            * Ideal.exp (Ideal.ofBits .f32 0x00000000#32 - half32 * (x6 (ix3 k p d) * xm (ix3 k p d))))) = _
  rw [zero_sub32, zero_sub32]
  rfl

/-- The mask's block passes through a cast to its own shape unchanged. -/
theorem pay3_eq (x7 : Vec Ideal S64x32x128 .f32) : k0_pay3 (F := Ideal) x7 = x7 :=
  shapeCast_self x7 shapeCasts_S64x32x128_S64x32x128

end Cert.KernelIdeal.Pay

end
-- ==== Proof.KBlocks.lean ====
/-
  The two columns the region leaves, each as one function of the argument arrays.

  The grid has 128 points; point `t` sees, of every `[64, 4096, 128]` operand, the tile of batch rows `32·t … 32·t + 31`
  at full time and feature extent, and writes rows `32·t … 32·t + 31` of each `[4096, 1]` result. So row `b` of the first
  result is ½ times the sum over features and time of the Kullback–Leibler integrand of batch row `b`, and row `b` of the
  second the sum of the negated log-density of batch row `b`; the 128 tiles cover the 4096 rows. The mask operand is
  the transpose the host made before the region: its entry `(t, b, d)` is the mask's entry `(b, t, d)`.
-/
import proofs.«168056_j18897856102820_1_alg».proof.Proof.Gen.KernelIdeal.Frame
import proofs.«168056_j18897856102820_1_alg».proof.Proof.KPay
import Idealize.ShloMosaic.Lib.Pipeline.Value
import Idealize.ShloMosaic.Lib.StableHlo.Run
import Idealize.ShloMosaic.Lib.Tactic

set_option maxRecDepth 16384

open scoped BigOperators

noncomputable section

namespace Cert.KernelIdeal.KValue

open Cert.KernelIdeal Cert.KernelIdeal.Gen Cert.KernelIdeal.Pay Idealize.ShloMosaic Idealize.ShloMosaic.TcCoe Idealize.SL.Sem
open Idealize.ShloMosaic.ValueIdx Cert.LossSpec Cert.LibSum3
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps, decided once over the 128 grid points: every input window's block is the full time and feature
    extent and the `t`-th tile of 32 batch rows; each output window's block is the `t`-th tile of 32 rows of its column. -/
theorem idx_facts : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 3) = 0 ∧ win0_4.index t (1 : Fin 3) = t.val ∧ win0_4.index t (2 : Fin 3) = 0)
    ∧ (win0_5.index t (0 : Fin 3) = 0 ∧ win0_5.index t (1 : Fin 3) = t.val ∧ win0_5.index t (2 : Fin 3) = 0)
    ∧ (win0_6.index t (0 : Fin 3) = 0 ∧ win0_6.index t (1 : Fin 3) = t.val ∧ win0_6.index t (2 : Fin 3) = 0)
    ∧ (win0_7.index t (0 : Fin 3) = 0 ∧ win0_7.index t (1 : Fin 3) = t.val ∧ win0_7.index t (2 : Fin 3) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Window 0's block at point `t` is the batch rows `32·t … 32·t + 31` of its array. -/
theorem iblk0_at (c : Dev nD) (t : Fin cfg0.N) (k : Fin 64) (p : Fin 32) (d : Fin 128) (b : Fin 4096)
    (hb : b.val = 32 * t.val + p.val) :
    (iblk m c 0 t : Vec Ideal S64x32x128 .f32) (ix3 k p d) = (V m c main_arg0 : S64x4096x128.Idx → EReal) (ix3 k b d) := by
  obtain ⟨e0, e1, e2⟩ := (idx_facts t).1
  unfold iblk
  rw [View.read_apply]
  show V m c main_arg0 _ = V m c main_arg0 _
  congr 1
  funext a
  apply Fin.ext
  match a with
  | ⟨0, _⟩ => show win0_0.index t 0 * 64 + 1 * k.val = k.val; rw [e0]; omega
  | ⟨1, _⟩ => show win0_0.index t 1 * 32 + 1 * p.val = b.val; rw [e1, hb]; omega
  | ⟨2, _⟩ => show win0_0.index t 2 * 128 + 1 * d.val = d.val; rw [e2]; omega

/-- The transposed mask the region reads: the one host operation before it. -/
theorem V_main_v0 (c : Dev nD) : (V m c main_v0 : S64x4096x128.Idx → EReal)
    = transpose S64x4096x128 [1, 0, 2] (m ((c : Thread nD τ).loc main_arg7)) transposes_S4096x64x128_S64x4096x128_1_0_2 := by
  show StableHlo.after hostOps0 (fun b => m (c, b)) (Proc.devRef .tc main_v0) = _
  after_results

/-- Window 1's block at point `t` is the batch rows `32·t … 32·t + 31` of its array. -/
theorem iblk1_at (c : Dev nD) (t : Fin cfg0.N) (k : Fin 64) (p : Fin 32) (d : Fin 128) (b : Fin 4096)
    (hb : b.val = 32 * t.val + p.val) :
    (iblk m c 1 t : Vec Ideal S64x32x128 .f32) (ix3 k p d) = (V m c main_arg1 : S64x4096x128.Idx → EReal) (ix3 k b d) := by
  obtain ⟨e0, e1, e2⟩ := (idx_facts t).2.1
  unfold iblk
  rw [View.read_apply]
  show V m c main_arg1 _ = V m c main_arg1 _
  congr 1
  funext a
  apply Fin.ext
  match a with
  | ⟨0, _⟩ => show win0_1.index t 0 * 64 + 1 * k.val = k.val; rw [e0]; omega
  | ⟨1, _⟩ => show win0_1.index t 1 * 32 + 1 * p.val = b.val; rw [e1, hb]; omega
  | ⟨2, _⟩ => show win0_1.index t 2 * 128 + 1 * d.val = d.val; rw [e2]; omega

/-- Window 2's block at point `t` is the batch rows `32·t … 32·t + 31` of its array. -/
theorem iblk2_at (c : Dev nD) (t : Fin cfg0.N) (k : Fin 64) (p : Fin 32) (d : Fin 128) (b : Fin 4096)
    (hb : b.val = 32 * t.val + p.val) :
    (iblk m c 2 t : Vec Ideal S64x32x128 .f32) (ix3 k p d) = (V m c main_arg2 : S64x4096x128.Idx → EReal) (ix3 k b d) := by
  obtain ⟨e0, e1, e2⟩ := (idx_facts t).2.2.1
  unfold iblk
  rw [View.read_apply]
  show V m c main_arg2 _ = V m c main_arg2 _
  congr 1
  funext a
  apply Fin.ext
  match a with
  | ⟨0, _⟩ => show win0_2.index t 0 * 64 + 1 * k.val = k.val; rw [e0]; omega
  | ⟨1, _⟩ => show win0_2.index t 1 * 32 + 1 * p.val = b.val; rw [e1, hb]; omega
  | ⟨2, _⟩ => show win0_2.index t 2 * 128 + 1 * d.val = d.val; rw [e2]; omega

/-- Window 3's block at point `t` is the batch rows `32·t … 32·t + 31` of its array. -/
theorem iblk3_at (c : Dev nD) (t : Fin cfg0.N) (k : Fin 64) (p : Fin 32) (d : Fin 128) (b : Fin 4096)
    (hb : b.val = 32 * t.val + p.val) :
    (iblk m c 3 t : Vec Ideal S64x32x128 .f32) (ix3 k p d) = (V m c main_arg3 : S64x4096x128.Idx → EReal) (ix3 k b d) := by
  obtain ⟨e0, e1, e2⟩ := (idx_facts t).2.2.2.1
  unfold iblk
  rw [View.read_apply]
  show V m c main_arg3 _ = V m c main_arg3 _
  congr 1
  funext a
  apply Fin.ext
  match a with
  | ⟨0, _⟩ => show win0_3.index t 0 * 64 + 1 * k.val = k.val; rw [e0]; omega
  | ⟨1, _⟩ => show win0_3.index t 1 * 32 + 1 * p.val = b.val; rw [e1, hb]; omega
  | ⟨2, _⟩ => show win0_3.index t 2 * 128 + 1 * d.val = d.val; rw [e2]; omega

/-- Window 4's block at point `t` is the batch rows `32·t … 32·t + 31` of its array. -/
theorem iblk4_at (c : Dev nD) (t : Fin cfg0.N) (k : Fin 64) (p : Fin 32) (d : Fin 128) (b : Fin 4096)
    (hb : b.val = 32 * t.val + p.val) :
    (iblk m c 4 t : Vec Ideal S64x32x128 .f32) (ix3 k p d) = (V m c main_arg4 : S64x4096x128.Idx → EReal) (ix3 k b d) := by
  obtain ⟨e0, e1, e2⟩ := (idx_facts t).2.2.2.2.1
  unfold iblk
  rw [View.read_apply]
  show V m c main_arg4 _ = V m c main_arg4 _
  congr 1
  funext a
  apply Fin.ext
  match a with
  | ⟨0, _⟩ => show win0_4.index t 0 * 64 + 1 * k.val = k.val; rw [e0]; omega
  | ⟨1, _⟩ => show win0_4.index t 1 * 32 + 1 * p.val = b.val; rw [e1, hb]; omega
  | ⟨2, _⟩ => show win0_4.index t 2 * 128 + 1 * d.val = d.val; rw [e2]; omega

/-- Window 5's block at point `t` is the batch rows `32·t … 32·t + 31` of its array. -/
theorem iblk5_at (c : Dev nD) (t : Fin cfg0.N) (k : Fin 64) (p : Fin 32) (d : Fin 128) (b : Fin 4096)
    (hb : b.val = 32 * t.val + p.val) :
    (iblk m c 5 t : Vec Ideal S64x32x128 .f32) (ix3 k p d) = (V m c main_arg5 : S64x4096x128.Idx → EReal) (ix3 k b d) := by
  obtain ⟨e0, e1, e2⟩ := (idx_facts t).2.2.2.2.2.1
  unfold iblk
  rw [View.read_apply]
  show V m c main_arg5 _ = V m c main_arg5 _
  congr 1
  funext a
  apply Fin.ext
  match a with
  | ⟨0, _⟩ => show win0_5.index t 0 * 64 + 1 * k.val = k.val; rw [e0]; omega
  | ⟨1, _⟩ => show win0_5.index t 1 * 32 + 1 * p.val = b.val; rw [e1, hb]; omega
  | ⟨2, _⟩ => show win0_5.index t 2 * 128 + 1 * d.val = d.val; rw [e2]; omega

/-- Window 6's block at point `t` is the batch rows `32·t … 32·t + 31` of its array. -/
theorem iblk6_at (c : Dev nD) (t : Fin cfg0.N) (k : Fin 64) (p : Fin 32) (d : Fin 128) (b : Fin 4096)
    (hb : b.val = 32 * t.val + p.val) :
    (iblk m c 6 t : Vec Ideal S64x32x128 .f32) (ix3 k p d) = (V m c main_arg6 : S64x4096x128.Idx → EReal) (ix3 k b d) := by
  obtain ⟨e0, e1, e2⟩ := (idx_facts t).2.2.2.2.2.2.1
  unfold iblk
  rw [View.read_apply]
  show V m c main_arg6 _ = V m c main_arg6 _
  congr 1
  funext a
  apply Fin.ext
  match a with
  | ⟨0, _⟩ => show win0_6.index t 0 * 64 + 1 * k.val = k.val; rw [e0]; omega
  | ⟨1, _⟩ => show win0_6.index t 1 * 32 + 1 * p.val = b.val; rw [e1, hb]; omega
  | ⟨2, _⟩ => show win0_6.index t 2 * 128 + 1 * d.val = d.val; rw [e2]; omega

/-- Window 7's block at point `t` is the batch rows `32·t … 32·t + 31` of the transposed mask. -/
theorem iblk7_at (c : Dev nD) (t : Fin cfg0.N) (k : Fin 64) (p : Fin 32) (d : Fin 128) (b : Fin 4096)
    (hb : b.val = 32 * t.val + p.val) :
    (iblk m c 7 t : Vec Ideal S64x32x128 .f32) (ix3 k p d) = (V m c main_v0 : S64x4096x128.Idx → EReal) (ix3 k b d) := by
  obtain ⟨e0, e1, e2⟩ := (idx_facts t).2.2.2.2.2.2.2.1
  unfold iblk
  rw [View.read_apply]
  show V m c main_v0 _ = V m c main_v0 _
  congr 1
  funext a
  apply Fin.ext
  match a with
  | ⟨0, _⟩ => show win0_7.index t 0 * 64 + 1 * k.val = k.val; rw [e0]; omega
  | ⟨1, _⟩ => show win0_7.index t 1 * 32 + 1 * p.val = b.val; rw [e1, hb]; omega
  | ⟨2, _⟩ => show win0_7.index t 2 * 128 + 1 * d.val = d.val; rw [e2]; omega

/-- The transposed mask at `(k, b, d)` is the mask at `(b, k, d)`. -/
theorem mask_at (c : Dev nD) (k : Fin 64) (b : Fin 4096) (d : Fin 128) :
    (V m c main_v0 : S64x4096x128.Idx → EReal) (ix3 k b d)
      = (m ((c : Thread nD τ).loc main_arg7) : S4096x64x128.Idx → EReal) (ix3 b k d) := by
  rw [V_main_v0]
  exact transpose_apply [1, 0, 2] _ transposes_S4096x64x128_S64x4096x128_1_0_2 (ix3 k b d) (ix3 b k d) (fun a => match a with
    | ⟨0, _⟩ => rfl
    | ⟨1, _⟩ => rfl
    | ⟨2, _⟩ => rfl)

/-! ## The two results, row by row -/

/-- Row `b` of the first result: ½ times the sum over features and time of the integrand of batch row `b`. -/
def rowK (c : Dev nD) (b : Fin 4096) : EReal :=
  half32 * ∑ d : Fin 128, ∑ k : Fin 64,
    kld ((V m c main_arg0 : S64x4096x128.Idx → EReal) (ix3 k b d)) ((V m c main_arg1 : S64x4096x128.Idx → EReal) (ix3 k b d))
      ((V m c main_arg3 : S64x4096x128.Idx → EReal) (ix3 k b d)) ((V m c main_arg4 : S64x4096x128.Idx → EReal) (ix3 k b d))

/-- Row `b` of the second result: the sum over features and time of the negated log-density of batch row `b`. -/
def rowN (c : Dev nD) (b : Fin 4096) : EReal :=
  ∑ d : Fin 128, ∑ k : Fin 64,
    -(logp ((V m c main_arg5 : S64x4096x128.Idx → EReal) (ix3 k b d)) ((V m c main_arg6 : S64x4096x128.Idx → EReal) (ix3 k b d))
      ((V m c main_arg2 : S64x4096x128.Idx → EReal) (ix3 k b d))
      ((m ((c : Thread nD τ).loc main_arg7) : S4096x64x128.Idx → EReal) (ix3 b k d)))

/-- The first result as a column. -/
def colK (c : Dev nD) : S4096x1.Idx → EReal := fun j => rowK m c ⟨(j 0).val, (j 0).isLt⟩
/-- The second result as a column. -/
def colN (c : Dev nD) : S4096x1.Idx → EReal := fun j => rowN m c ⟨(j 0).val, (j 0).isLt⟩

/-- What the body stores into the first result's buffer at point `t`, row `p`, is row `32·t + p` of the first result. -/
theorem out8_at (c : Dev nD) (t : Fin cfg0.N) (p : Fin 32) (u : Fin 1) (b : Fin 4096) (hb : b.val = 32 * t.val + p.val) :
    k0_pay2 (F := Ideal) (iblk m c 0 t) (iblk m c 1 t) (iblk m c 3 t) (iblk m c 4 t) (ix2 p u) = rowK m c b := by
  refine (pay2_at (iblk m c 0 t) (iblk m c 1 t) (iblk m c 3 t) (iblk m c 4 t) p u).trans ?_
  unfold rowK
  refine congrArg (half32 * ·) (Finset.sum_congr rfl fun d _ => Finset.sum_congr rfl fun k _ => ?_)
  rw [iblk0_at m c t k p d b hb, iblk1_at m c t k p d b hb, iblk3_at m c t k p d b hb, iblk4_at m c t k p d b hb]

/-- What the body stores into the second result's buffer at point `t`, row `p`, is row `32·t + p` of the second result. -/
theorem out9_at (c : Dev nD) (t : Fin cfg0.N) (p : Fin 32) (u : Fin 1) (b : Fin 4096) (hb : b.val = 32 * t.val + p.val) :
    k0_pay1 (F := Ideal) (k0_pay3 (iblk m c 7 t)) (iblk m c 5 t) (iblk m c 6 t) (iblk m c 2 t) (ix2 p u) = rowN m c b := by
  rw [pay3_eq]
  refine (pay1_at (iblk m c 7 t) (iblk m c 5 t) (iblk m c 6 t) (iblk m c 2 t) p u).trans ?_
  unfold rowN
  refine Finset.sum_congr rfl fun d _ => Finset.sum_congr rfl fun k _ => ?_
  rw [iblk5_at m c t k p d b hb, iblk6_at m c t k p d b hb, iblk2_at m c t k p d b hb, iblk7_at m c t k p d b hb, mask_at]

/-- WHAT POINT `t` WRITES BACK to the first result is block `t` of its column. -/
theorem flushed8_eq (c : Dev nD) (t : Fin cfg0.N) :
    (dats m 0 c).flushed 8 t = ((cfg0.win 8).blk t).view.read (Elt Ideal) (colK m c) := by
  show (cfg0.win 8).cut (grid0.coords t) ((dats m 0 c).after 8 t) = _
  rw [after0_8]
  unfold out0_8
  rw [View.canon_unit_zero hz2]
  simp only [View.ld_unit_zero (S := S64x32x128) hz3]
  funext j
  obtain ⟨p, u, rfl⟩ : ∃ (p : Fin 32) (u : Fin 1), j = ix2 p u := ⟨j 0, j 1, eq_ix2 j⟩
  obtain ⟨e0, e1⟩ := (idx_facts t).2.2.2.2.2.2.2.2.1
  rw [View.read_apply]
  refine out8_at m c t p u _ ?_
  show win0_8.index t 0 * 32 + 1 * p.val = 32 * t.val + p.val
  rw [e0]; omega

/-- WHAT POINT `t` WRITES BACK to the second result is block `t` of its column. -/
theorem flushed9_eq (c : Dev nD) (t : Fin cfg0.N) :
    (dats m 0 c).flushed 9 t = ((cfg0.win 9).blk t).view.read (Elt Ideal) (colN m c) := by
  show (cfg0.win 9).cut (grid0.coords t) ((dats m 0 c).after 9 t) = _
  rw [after0_9]
  unfold out0_9
  rw [View.canon_unit_zero hz2]
  simp only [View.ld_unit_zero (S := S64x32x128) hz3]
  funext j
  obtain ⟨p, u, rfl⟩ : ∃ (p : Fin 32) (u : Fin 1), j = ix2 p u := ⟨j 0, j 1, eq_ix2 j⟩
  obtain ⟨e0, e1⟩ := (idx_facts t).2.2.2.2.2.2.2.2.2
  rw [View.read_apply]
  refine out9_at m c t p u _ ?_
  show win0_9.index t 0 * 32 + 1 * p.val = 32 * t.val + p.val
  rw [e0]; omega

/-- An index of the first result is in point `t`'s block iff each coordinate is in the block's range on its axis. -/
theorem mem_blk8 (t : Fin cfg0.N) (i : S4096x1.Idx) :
    i ∈ ((cfg0.win 8).blk t).view.set ↔ ∀ a : Fin 2, win0_8.index t a * S32x1.size a ≤ (i a).val ∧ (i a).val < win0_8.index t a * S32x1.size a + S32x1.size a := by
  show i ∈ ((View.whole main_v1_0).slice (win0_8.rect t)).set ↔ _
  rw [View.set_slice_whole, Rect.mem_set_unit]
  exact Iff.rfl

/-- The same for the second result. -/
theorem mem_blk9 (t : Fin cfg0.N) (i : S4096x1.Idx) :
    i ∈ ((cfg0.win 9).blk t).view.set ↔ ∀ a : Fin 2, win0_9.index t a * S32x1.size a ≤ (i a).val ∧ (i a).val < win0_9.index t a * S32x1.size a + S32x1.size a := by
  show i ∈ ((View.whole main_v1_1).slice (win0_9.rect t)).set ↔ _
  rw [View.set_slice_whole, Rect.mem_set_unit]
  exact Iff.rfl

/-- Row `r` of the first result is in the block of point `r / 32`. -/
theorem cover8 (i : S4096x1.Idx) : ∃ t : Fin cfg0.N, (cfg0.win 8).flush t = true ∧ i ∈ ((cfg0.win 8).blk t).view.set := by
  have h0 : (i 0).val < 4096 := (i 0).isLt
  have h1 : (i 1).val < 1 := (i 1).isLt
  have hN : cfg0.N = 128 := N_0
  refine ⟨⟨(i 0).val / 32, by rw [hN]; omega⟩, flush0_8 _, ?_⟩
  obtain ⟨e0, e1⟩ := (idx_facts ⟨(i 0).val / 32, by rw [hN]; omega⟩).2.2.2.2.2.2.2.2.1
  rw [mem_blk8]
  intro a
  match a with
  | ⟨0, _⟩ =>
    show win0_8.index _ 0 * 32 ≤ (i 0).val ∧ (i 0).val < win0_8.index _ 0 * 32 + 32
    rw [e0]; dsimp only; omega
  | ⟨1, _⟩ =>
    show win0_8.index _ 1 * 1 ≤ (i 1).val ∧ (i 1).val < win0_8.index _ 1 * 1 + 1
    rw [e1]; omega

/-- Row `r` of the second result is in the block of point `r / 32`. -/
theorem cover9 (i : S4096x1.Idx) : ∃ t : Fin cfg0.N, (cfg0.win 9).flush t = true ∧ i ∈ ((cfg0.win 9).blk t).view.set := by
  have h0 : (i 0).val < 4096 := (i 0).isLt
  have h1 : (i 1).val < 1 := (i 1).isLt
  have hN : cfg0.N = 128 := N_0
  refine ⟨⟨(i 0).val / 32, by rw [hN]; omega⟩, flush0_9 _, ?_⟩
  obtain ⟨e0, e1⟩ := (idx_facts ⟨(i 0).val / 32, by rw [hN]; omega⟩).2.2.2.2.2.2.2.2.2
  rw [mem_blk9]
  intro a
  match a with
  | ⟨0, _⟩ =>
    show win0_9.index _ 0 * 32 ≤ (i 0).val ∧ (i 0).val < win0_9.index _ 0 * 32 + 32
    rw [e0]; dsimp only; omega
  | ⟨1, _⟩ =>
    show win0_9.index _ 1 * 1 ≤ (i 1).val ∧ (i 1).val < win0_9.index _ 1 * 1 + 1
    rw [e1]; omega

/-- THE FIRST RESULT after the run is its column. -/
theorem final8 (c : Dev nD) : (dats m 0 c).arrAt 8 cfg0.N = colK m c :=
  (dats m 0 c).arrAt_eq_of_cover 8 (colK m c) (fun t _ => flushed8_eq m c t) cover8

/-- THE SECOND RESULT after the run is its column. -/
theorem final9 (c : Dev nD) : (dats m 0 c).arrAt 9 cfg0.N = colN m c :=
  (dats m 0 c).arrAt_eq_of_cover 9 (colN m c) (fun t _ => flushed9_eq m c t) cover9

end Cert.KernelIdeal.KValue

end
-- ==== Proof.LibColumn.lean ====
/-
  A column `[a, 1]` flattened to a vector `[a]`: entry `i` of the vector is the column's entry in row `i`.
-/
import Idealize.ShloMosaic.Lib.ValueLayout
import Idealize.ShloMosaic.Lib.Pipeline.Value

namespace Idealize.ShloMosaic.ValueIdx

open Idealize.ShloMosaic

variable {α : Type}

/-- A column `[a, 1]` cast to the vector `[a]` reads, at `i`, the column's entry in row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.KTail.lean ====
/-
  The kernel's result: the host operations after the region, applied to the two columns the region leaves.

  The first column is flattened to a vector and summed; the second is summed over both its axes; each sum starts from
  the zero word, is divided by 4096, and the two quotients are added. Summing a column of 4096 rows is summing its rows.
  Row `b` of the first column is ½ times the sum over features then time of the integrand; the loss takes time first,
  then features: the same double sum with its two finite sums exchanged.
-/
import proofs.«168056_j18897856102820_1_alg».proof.Proof.KBlocks
import proofs.«168056_j18897856102820_1_alg».proof.Proof.LibColumn
import Idealize.ShloMosaic.Lib.IdealHost

set_option maxRecDepth 16384

open scoped BigOperators

noncomputable section

namespace Cert.KernelIdeal.KValue

open Cert.KernelIdeal Cert.KernelIdeal.Gen Cert.KernelIdeal.Pay Idealize.ShloMosaic Idealize.ShloMosaic.TcCoe Idealize.SL.Sem
open Idealize.ShloMosaic.ValueIdx Cert.LossSpec Cert.LibSum3
open Idealize.ShloMosaic.Pipeline (Dat)

variable (m : (ℓ : Loc nD τ sig) → Buf (Elt Ideal) ℓ) (ρ : Dev nD → PrngReg)

/-- The host operations after the region, on any two columns: each column's rows summed and divided by 4096, the two
    quotients added. -/
theorem tail_pure (K N : S4096x1.Idx → EReal) :
    addf (Host.divf (Host.reduceAdd (F := Ideal) (shapeCast S4096 K shapeCasts_S4096x1_S4096)
            (constant S_ .f32 0x00000000#32) reducesTo_S4096_S_d0 h_S_) (constant S_ .f32 0x45800000#32))
         (Host.divf (Host.reduceAdd (F := Ideal) N (constant S_ .f32 0x00000000#32) reducesTo_S4096x1_S_d0_1 h_S_)
            (constant S_ .f32 0x45800000#32))
      = fun _ => Ideal.div (∑ b : Fin 4096, K (ix2 b (0 : Fin 1))) cnt32
          + Ideal.div (∑ b : Fin 4096, N (ix2 b (0 : Fin 1))) cnt32 := by
  funext i
  show Ideal.div (Ideal.hostReduceAdd reducesTo_S4096_S_d0 (shapeCast S4096 K shapeCasts_S4096x1_S4096)
        (Ideal.ofBits .f32 0x00000000#32) i) cnt32
      + Ideal.div (Ideal.hostReduceAdd reducesTo_S4096x1_S_d0_1 N (Ideal.ofBits .f32 0x00000000#32) i) cnt32 = _
  rw [Ideal.hostReduceAdd_total _ (fun b => b.elim0), Ideal.hostReduceAdd_total _ (fun b => b.elim0),
    Ideal.ofBits_zero_f32, zero_add, zero_add, sum_idx1, sum_idx_col]
  have e : ∀ b : Fin 4096, shapeCast S4096 K shapeCasts_S4096x1_S4096 (ix1 b) = K (ix2 b (0 : Fin 1)) :=
    fun b => shapeCast_a1_a_apply K shapeCasts_S4096x1_S4096 b
  simp only [e]

/-- Row `b` of the first column, time first: the two finite sums exchanged, the arrays as launched. -/
theorem rowK_eq (c : Dev nD) (b : Fin 4096) :
    colK m c (ix2 b (0 : Fin 1)) = half32 * ∑ t : Fin 64, ∑ d : Fin 128,
      kld ((m ((c : Thread nD τ).loc main_arg0) : S64x4096x128.Idx → EReal) (ix3 t b d))
        ((m ((c : Thread nD τ).loc main_arg1) : S64x4096x128.Idx → EReal) (ix3 t b d))
        ((m ((c : Thread nD τ).loc main_arg3) : S64x4096x128.Idx → EReal) (ix3 t b d))
        ((m ((c : Thread nD τ).loc main_arg4) : S64x4096x128.Idx → EReal) (ix3 t b d)) := by
  show rowK m c b = _
  unfold rowK
  rw [Finset.sum_comm, V_main_arg0, V_main_arg1, V_main_arg3, V_main_arg4]

/-- Row `b` of the second column, time first. -/
theorem rowN_eq (c : Dev nD) (b : Fin 4096) :
    colN m c (ix2 b (0 : Fin 1)) = ∑ t : Fin 64, ∑ d : Fin 128,
      -(logp ((m ((c : Thread nD τ).loc main_arg5) : S64x4096x128.Idx → EReal) (ix3 t b d))
        ((m ((c : Thread nD τ).loc main_arg6) : S64x4096x128.Idx → EReal) (ix3 t b d))
        ((m ((c : Thread nD τ).loc main_arg2) : S64x4096x128.Idx → EReal) (ix3 t b d))
        ((m ((c : Thread nD τ).loc main_arg7) : S4096x64x128.Idx → EReal) (ix3 b t d))) := by
  show rowN m c b = _
  unfold rowN
  rw [Finset.sum_comm, V_main_arg5, V_main_arg6, V_main_arg2]

/-- The tail's operations on the two columns the region leaves. -/
theorem tail_form (c : Dev nD) :
    Pipeline.afterTail₀ cfgs (dats m) 0 (V0 m) [hostOps1] c main_v7
      = addf (Host.divf (Host.reduceAdd (F := Ideal) (shapeCast S4096 (colK m c) shapeCasts_S4096x1_S4096)
            (constant S_ .f32 0x00000000#32) reducesTo_S4096_S_d0 h_S_) (constant S_ .f32 0x45800000#32))
         (Host.divf (Host.reduceAdd (F := Ideal) (colN m c) (constant S_ .f32 0x00000000#32) reducesTo_S4096x1_S_d0_1 h_S_)
            (constant S_ .f32 0x45800000#32)) := by
  unfold Pipeline.afterTail₀
  show StableHlo.after hostOps1 _ (Proc.devRef .tc main_v7) = _
  after_results
  have e8 : Pipeline.withArrays (cfgs 0).spec c (V0 m c) (fun w => (dats m 0 c).arrAt w (cfgs 0).N)
      (Proc.devRef .tc main_v1_0) = colK m c :=
    (Pipeline.withArrays_arr spec0 launch0.win.arr_inj c _ _ 8).trans (final8 m c)
  have e9 : Pipeline.withArrays (cfgs 0).spec c (V0 m c) (fun w => (dats m 0 c).arrAt w (cfgs 0).N)
      (Proc.devRef .tc main_v1_1) = colN m c :=
    (Pipeline.withArrays_arr spec0 launch0.win.arr_inj c _ _ 9).trans (final9 m c)
  rw [e8, e9]
  rfl

/-- THE KERNEL'S RESULT is the loss of the argument arrays. -/
theorem kernel_value (c : Dev nD) :
    Pipeline.afterTail₀ cfgs (dats m) 0 (V0 m) [hostOps1] c main_v7
      = fun _ => loss (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [tail_form, tail_pure]
  funext _
  unfold loss
  simp only [rowK_eq, rowN_eq]

end Cert.KernelIdeal.KValue

end
-- ==== Proof.KRun.lean ====
/-
  The kernel's run, read: every weakly fair execution terminates with the result at the loss of the argument arrays
  and the arguments unchanged. The result is no array of the region: it is what the host operations after the region
  leave, read off the run's post; the arguments are the region's input arrays (unchanged by the region) and the three
  buffers no window stages (unchanged by the operations after it).
-/
import proofs.«168056_j18897856102820_1_alg».proof.Proof.KTail

set_option maxRecDepth 16384

noncomputable section

namespace Cert.KernelIdeal.KValue

open Cert.KernelIdeal Cert.KernelIdeal.Gen Idealize.ShloMosaic Idealize.ShloMosaic.TcCoe Idealize.SL.Sem
open Cert.LossSpec
open Idealize.ShloMosaic.Pipeline (Dat)

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v7)
        = (fun _ => loss (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v7 (Pipeline.mem_restRefs_of main_v7 (by decide) (by decide))).trans (kernel_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.KValue

end
-- ==== Proof.RefSide.lean ====
/-
  The reference computes the loss.

  Its result is read one operation at a time from the generated stages. The sum across dimensions 0 and 2 of the
  Kullback–Leibler integrand keeps the batch axis: entry `b` is the double sum over time and feature. The total of the
  log-density is taken over every index and then negated; with real inputs each term is a real number, so the negative
  of the total is the total of the negatives, and the triple sum is taken batch row first. The mask is read through its
  transpose: entry `(t, b, d)` of the transposed mask is entry `(b, t, d)` of the mask.
-/
import proofs.«168056_j18897856102820_1_alg».proof.Proof.Gen.ReferenceIdeal.Read
import proofs.«168056_j18897856102820_1_alg».proof.Proof.LibSum3
import proofs.«168056_j18897856102820_1_alg».proof.Proof.Spec
import Idealize.ShloMosaic.Lib.ValueIdx
import Idealize.ShloMosaic.Lib.IdealHost
import Idealize.ShloMosaic.PureOps.Ideal.Laws

open scoped BigOperators

noncomputable section

namespace Cert.ReferenceIdeal.RefValue

open Cert.ReferenceIdeal Cert.ReferenceIdeal.Gen Cert.ReferenceIdeal.Read Idealize.ShloMosaic Idealize.ShloMosaic.ValueIdx
open Cert.LossSpec Cert.LibSum3

/-- The transposed mask at `(t, b, d)` reads the mask at `(b, t, d)`. -/
theorem idx14_ix3 (t : Fin 64) (b : Fin 4096) (d : Fin 128) : idx_main_v14 (ix3 t b d) = ix3 b t d := by
  funext a
  match a with
  | ⟨0, _⟩ => rfl
  | ⟨1, _⟩ => rfl
  | ⟨2, _⟩ => rfl

/-- The stage before the first sum is the Kullback–Leibler integrand, element by element. -/
theorem v10_at (x0 x1 x3 x4 : S64x4096x128.Idx → EReal) (i : S64x4096x128.Idx) :
    val_main_v10 (F := Ideal) x0 x1 x3 x4 i = kld (x0 i) (x1 i) (x3 i) (x4 i) := rfl

/-- The stage before the second sum is the log-density, element by element, the mask read through its transpose. -/
theorem v29_at (x2 x5 x6 : S64x4096x128.Idx → EReal) (x7 : S4096x64x128.Idx → EReal) (i : S64x4096x128.Idx) :
    val_main_v29 (F := Ideal) x2 x5 x6 x7 i = logp (x5 i) (x6 i) (x2 i) (x7 (idx_main_v14 i)) := by
  have e : val_main_v14 (F := Ideal) x7 i = x7 (idx_main_v14 i) := val_main_v14_apply (F := Ideal) x7 i
  unfold logp
  rw [← e]
  rfl

/-- THE REFERENCE'S RESULT is the loss, when the decoder's mean and spread, the observation and the mask are real. -/
theorem ref_value (x0 x1 x2 x3 x4 x5 x6 : S64x4096x128.Idx → EReal) (x7 : S4096x64x128.Idx → EReal)
    (h2 : ∀ i, ∃ r : ℝ, x2 i = (r : EReal)) (h5 : ∀ i, ∃ r : ℝ, x5 i = (r : EReal))
    (h6 : ∀ i, ∃ r : ℝ, x6 i = (r : EReal)) (h7 : ∀ j, ∃ r : ℝ, x7 j = (r : EReal)) :
    val_main_v35 (F := Ideal) x0 x1 x2 x3 x4 x5 x6 x7 = fun _ => loss x0 x1 x2 x3 x4 x5 x6 x7 := by
  funext i
  rw [val_main_v35_apply, val_main_v33_apply, val_main_v34_apply, val_main_v32_apply, val_main_v31_apply,
    val_main_v30_apply]
  unfold loss
  show Ideal.div (Ideal.ofBits .f32 0x00000000#32 + ∑ j : S4096.Idx, val_main_v13 (F := Ideal) x0 x1 x3 x4 j) cnt32
      + Ideal.div (-(Ideal.ofBits .f32 0x00000000#32 + ∑ j : S64x4096x128.Idx, val_main_v29 (F := Ideal) x2 x5 x6 x7 j)) cnt32 = _
  rw [Ideal.ofBits_zero_f32, zero_add, zero_add]
  congr 1
  · -- the mean of the halved row sums
    congr 1
    rw [sum_idx1]
    refine Finset.sum_congr rfl fun b _ => ?_
    show half32 * Ideal.hostReduceAdd reducesTo_S64x4096x128_S4096_d0_2 (val_main_v10 (F := Ideal) x0 x1 x3 x4)
      (Ideal.ofBits .f32 0x00000000#32) (ix1 b) = _
    rw [hostReduceAdd_02_apply, Ideal.ofBits_zero_f32, zero_add]
    rfl
  · -- the negated total, batch row first
    congr 1
    have hreal : ∀ j : S64x4096x128.Idx, ∃ r : ℝ, val_main_v29 (F := Ideal) x2 x5 x6 x7 j = (r : EReal) := fun j => by
      obtain ⟨a2, e2⟩ := h2 j
      obtain ⟨a5, e5⟩ := h5 j
      obtain ⟨a6, e6⟩ := h6 j
      obtain ⟨a7, e7⟩ := h7 (idx_main_v14 j)
      rw [v29_at, e2, e5, e6, e7]
      exact logp_real a5 a6 a2 a7
    rw [neg_sum_of_real _ _ hreal, sum_idx3, Finset.sum_comm]
    refine Finset.sum_congr rfl fun b _ => Finset.sum_congr rfl fun t _ => Finset.sum_congr rfl fun d _ => ?_
    rw [v29_at, idx14_ix3]

end Cert.ReferenceIdeal.RefValue

end
-- ==== Proof.PreDecode.lean ====
/-
  What the precondition says of the inputs.

  The precondition is the conjunction, over the ten inputs, of "every entry has absolute value below +∞". On the
  extended reals `|x| = max x (−x)`, which is +∞ exactly when `x` is one of the two infinities; so an entry that passes
  the test is a real number. The conjunction is printed as a chain of `and`s of `all`-reductions; it is taken apart one
  link at a time, and of the ten facts the four that the log-density reads are kept: the observation, the decoder's mean
  and spread, and the mask.
-/
import proofs.«168056_j18897856102820_1_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Decode

open Cert.Pre_finite_inputs Idealize.ShloMosaic Idealize.ShloMosaic.ValueIdx

instance : Subsingleton S_.Idx := ⟨fun a b => funext fun d => d.elim0⟩

/-- The word `0x7F800000` is +∞. -/
theorem inf32 : Ideal.ofBits .f32 0x7F800000#32 = ⊤ := by simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  rw [inf32] at h
  have hlt : max x (-x) < ⊤ := by
    by_contra hn
    simp [Ideal.cmp, hn] at h
  induction x using EReal.rec with
  | bot => exact absurd hlt (by simp)
  | coe r => exact ⟨r, rfl⟩
  | top => exact absurd hlt (by simp)

/-- One `all(|x| < +∞)`: every entry of `x` is a real number. -/
theorem all_real {S : Shape} {axes : List (Fin S.rank)} (x : FVec Ideal S .f32) (hb : S_.BroadcastsInDim S (![] : Fin 0 → Fin S.rank))
    (hr : S.ReducesTo axes S_) (hu : 0 < S_.numel)
    (e : Host.reduce IntOp.andi (cmpf .olt (Host.absf x) (broadcastInDim S ![] hb (constant (F := Ideal) S_ .f32 0x7F800000#32)))
      (constantI S_ 1 1#1) hr hu ix0 = 1#1) (i : S.Idx) : ∃ r : ℝ, x i = (r : EReal) :=
  real_of_abs_lt_inf (x i) (Host.reduce_andi_all _ _ hr hu ix0 e i)

variable [Facts]

/-- Under the precondition the observation, the decoder's mean and spread, and the mask hold real numbers. -/
theorem reals_of_pre (a0 a1 a2 a3 a4 a5 a6 : FVec Ideal S64x4096x128 .f32) (a7 a8 a9 : FVec Ideal S4096x64x128 .f32)
    (h : fn (F := Ideal) a0 a1 a2 a3 a4 a5 a6 a7 a8 a9 = fun _ => 1#1) :
    (∀ i, ∃ r : ℝ, a2 i = (r : EReal)) ∧ (∀ i, ∃ r : ℝ, a5 i = (r : EReal))
      ∧ (∀ i, ∃ r : ℝ, a6 i = (r : EReal)) ∧ (∀ j, ∃ r : ℝ, a7 j = (r : EReal)) := by
  have h0 := congrFun h ix0
  dsimp only [fn, fn_part1, fn_part2] at h0
  obtain ⟨h0, -⟩ := IntOp.andi_eq_one.1 h0
  obtain ⟨h0, -⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, -⟩ := IntOp.andi_eq_one.1 h0
  obtain ⟨h0, -⟩ := IntOp.andi_eq_one.1 h0
  obtain ⟨-, h2⟩ := IntOp.andi_eq_one.1 h0
  exact ⟨all_real a2 _ _ _ h2, all_real a5 _ _ _ h5, all_real a6 _ _ _ h6, all_real a7 _ _ _ h7⟩

end Cert.Pre_finite_inputs.Decode

end
-- ==== Proof.lean ====
/-
  The kernel and its reference compute one loss.

  Both programs take seven `[64, 4096, 128]` arrays (time, batch, feature), a `[4096, 64, 128]` mask and two arrays neither
  reads, and return one number: the mean over the 4096 batch rows of ½ times the Kullback–Leibler integrand summed
  over time and feature, plus the sum of the negated masked log-density over everything divided by 4096
  (Proof/Spec.lean writes it once, `loss`).

  The kernel runs on a grid of 128 tiles of 32 batch rows; each tile stores, per row, the two sums over time and
  feature (Proof/KPay.lean), the tiles cover the rows (Proof/KBlocks.lean), and the host operations after the region sum
  the rows and divide (Proof/KTail.lean, Proof/KRun.lean). The reference sums the first integrand across time and
  feature at once and negates the total of the log-density afterwards (Proof/RefSide.lean). The two differ in the order
  of finite sums, which is immaterial on the extended reals, in writing `−x` as `0 − x`, and in negating before or
  after summing: that last step needs the terms to be real numbers, which the precondition gives for the four arrays the
  log-density reads (Proof/PreDecode.lean).
-/
import proofs.«168056_j18897856102820_1_alg».proof.Defs
import proofs.«168056_j18897856102820_1_alg».proof.Proof.Gen.Kernel
import proofs.«168056_j18897856102820_1_alg».proof.Proof.Gen.Kernel.Skeleton
import proofs.«168056_j18897856102820_1_alg».proof.Proof.Gen.Kernel.Launch
import proofs.«168056_j18897856102820_1_alg».proof.Proof.Gen.Kernel.Points
import proofs.«168056_j18897856102820_1_alg».proof.Proof.Gen.Kernel.Frame
import proofs.«168056_j18897856102820_1_alg».proof.Proof.Gen.KernelIdeal
import proofs.«168056_j18897856102820_1_alg».proof.Proof.Gen.KernelIdeal.Skeleton
import proofs.«168056_j18897856102820_1_alg».proof.Proof.Gen.KernelIdeal.Launch
import proofs.«168056_j18897856102820_1_alg».proof.Proof.Gen.KernelIdeal.Points
import proofs.«168056_j18897856102820_1_alg».proof.Proof.Gen.KernelIdeal.Frame
import proofs.«168056_j18897856102820_1_alg».proof.Proof.Gen.ReferenceIdeal
import proofs.«168056_j18897856102820_1_alg».proof.Proof.Gen.Pre_finite_inputs
import proofs.«168056_j18897856102820_1_alg».proof.Proof.Gen.ReferenceIdeal.Run
import proofs.«168056_j18897856102820_1_alg».proof.Proof.Gen.ReferenceIdeal.Read
import proofs.«168056_j18897856102820_1_alg».proof.Proof.KRun
import proofs.«168056_j18897856102820_1_alg».proof.Proof.RefSide
import proofs.«168056_j18897856102820_1_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the loss of the argument arrays; the reference's arrays are the kernel's. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, -, -⟩ := hagree c
  obtain ⟨h2, h5, h6, h7⟩ := Cert.Pre_finite_inputs.Decode.reals_of_pre _ _ _ _ _ _ _ _ _ _ (hpre c)
  rw [a0, a1, a2, a3, a4, a5, a6, a7]
  exact (Cert.ReferenceIdeal.Read.val_main_v35_eq _ _ _ _ _ _ _ _).trans
    (Cert.ReferenceIdeal.RefValue.ref_value _ _ _ _ _ _ _ _ h2 h5 h6 h7)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
